-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S2x1600000 : Shape := ⟨2, ![2, 1600000]⟩
abbrev S768x64 : Shape := ⟨2, ![768, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x768 .f32) (main_arg1 : IVec S2x1600000 32) (main_arg2 : FVec F S768x64 .f32) (main_arg3 : FVec F S64 .f32) (main_arg4 : FVec F S64x32 .f32) (main_arg5 : FVec F S32 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x64 .f32 := Host.absf main_arg2
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x768 : Shape := ⟨2, ![100000, 768]⟩
abbrev S2x1600000 : Shape := ⟨2, ![2, 1600000]⟩
abbrev S768x64 : Shape := ⟨2, ![768, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x768 : Shape := ⟨2, ![2000, 768]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S5000x64 : Shape := ⟨2, ![5000, 64]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x768, .f32⟩
  | .hbm, ⟨1, _⟩ => ⟨S2x1600000, .i32⟩
  | .hbm, ⟨2, _⟩ => ⟨S768x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S2000x768, .f32⟩
  | .local _ .vmem, ⟨1, _⟩ => ⟨S2000x768, .f32⟩
  | .local _ .vmem, ⟨2, _⟩ => ⟨S768x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x768_S768x64_S2000x64_1_0_0_1_n_n_wf : DotDims.WF S2000x768 S768x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x768 : Shape := ⟨2, ![100000, 768]⟩
abbrev S2x1600000 : Shape := ⟨2, ![2, 1600000]⟩
abbrev S768x64 : Shape := ⟨2, ![768, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S2x1600000, .i32⟩
  | .hbm, ⟨2, _⟩ => ⟨S768x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x32, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x768_S768x64_S100000x64_1_0_0_1_n_n_wf : DotDims.WF S100000x768 S768x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x768_S768x64_S100000x64_1_0_0_1_n_n : DotDims S100000x768 S768x64 S100000x64 where
  lhsContracting := [1]
  rhsContracting := [0]
  lhsNonContracting := [0]
  rhsNonContracting := [1]
  lhsBatch := []
  rhsBatch := []
  wf := dot_S100000x768_S768x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.GcnSpec.lean ====
/-
  A two-layer graph convolution, as functions of whole arrays.

  The graph has 100000 nodes and 1600000 edges, given as two rows of node numbers (sources, destinations); every node
  also gets a loop to itself, so there are 1700000 edge slots in all. A node's degree is the number of slots whose
  destination it is; its weight is degree^(-1/2) where the degree is positive and 0 elsewhere; a slot's weight is the
  product of its two ends' weights. One layer takes node features h (already multiplied by the layer's matrix), sends
  along every slot the source's row scaled by the slot's weight, adds up at each node what arrives there, and adds the
  bias row. The network is  layer₂ (relu (layer₁ (x·W₁)) · W₂).

  A node number below zero names the node counted from the end (100000 is added) before a row is fetched; the sums
  over destinations drop a slot whose destination is out of range. All of that is carried here as it is spelt, by
  the host's own gather and scatter-add: nothing in this file opens them.

  The functions are stated for any float family; the two matrix products are parameters of `net`, so that the
  same function serves a program that computes them by one product and one that computes them block of rows by block.
-/
import proofs.«127424_j17068200034897_1_alg».proof.ReferenceIdeal

noncomputable section

namespace Cert.Gcn

open Cert.ReferenceIdeal Idealize.ShloMosaic Idealize.ShloMosaic.TcCoe

variable {F : FTy → Type} [FloatOps F] [Cert.ReferenceIdeal.Facts]
open Cert.ReferenceIdeal.Facts₀ Cert.ReferenceIdeal.Facts

/-- Row 0 of the edge list (the sources) followed by every node's own number. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Row 1 of the edge list (the destinations) followed by every node's own number. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node number below zero is counted from the end: 100000 is added to it. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- Each node's degree: one is added at its destination for every edge slot. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- Each node's weight: degree^(-1/2) where the degree is positive, 0 elsewhere. -/
def dinvOf (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32))) (Host.rsqrt deg) (broadcastInDim S100000 ![] bcast_S_S100000 (id (constant S_ .f32 0x00000000#32)))

/-- Each edge slot's weight: the product of its two ends' weights. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf (degOf dst)) (broadcastInDim S1700000x1 ![0] bcast_S1700000_S1700000x1_0 (wrap src))) (Host.gather gather_S100000_S1700000x1_S1700000_n_0_n_n_0_1_1 (dinvOf (degOf dst)) (broadcastInDim S1700000x1 ![0] bcast_S1700000_S1700000x1_0 (wrap dst)))

/-- The first layer's aggregation over 64 features: along every slot the source's row times the slot's weight, summed at
    the destination, plus the bias row. -/
def layer64 (h : (⟨S100000x64, .f32⟩ : BufTy).Contents (Elt F)) (src dst : (⟨S1700000, .i32⟩ : BufTy).Contents (Elt F))
    (nrm : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrap src))) (broadcastInDim S1700000x64 ![0, 1] bcast_S1700000x1_S1700000x64_0_1 (broadcastInDim S1700000x1 ![0] bcast_S1700000_S1700000x1_0 nrm)))) (broadcastInDim S100000x64 ![0, 1] bcast_S1x64_S100000x64_0_1 (broadcastInDim S1x64 ![1] bcast_S64_S1x64_1 b))

/-- The larger of each entry and 0. -/
def relu64 (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The second layer's aggregation, over 32 features. -/
def layer32 (h : (⟨S100000x32, .f32⟩ : BufTy).Contents (Elt F)) (src dst : (⟨S1700000, .i32⟩ : BufTy).Contents (Elt F))
    (nrm : (⟨S1700000, .f32⟩ : BufTy).Contents (Elt F)) (b : (⟨S32, .f32⟩ : BufTy).Contents (Elt F)) : (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 dst) (mulf (Host.gather gather_S100000x32_S1700000x1_S1700000x32_1_0_n_n_0_1_132 h (broadcastInDim S1700000x1 ![0] bcast_S1700000_S1700000x1_0 (wrap src))) (broadcastInDim S1700000x32 ![0, 1] bcast_S1700000x1_S1700000x32_0_1 (broadcastInDim S1700000x1 ![0] bcast_S1700000_S1700000x1_0 nrm)))) (broadcastInDim S100000x32 ![0, 1] bcast_S1x32_S100000x32_0_1 (broadcastInDim S1x32 ![1] bcast_S32_S1x32_1 b))

/-- The first product, features times the first matrix, as ONE product of whole arrays. -/
def prod64 (x : (⟨S100000x768, .f32⟩ : BufTy).Contents (Elt F)) (W : (⟨S768x64, .f32⟩ : BufTy).Contents (Elt F)) : (⟨S100000x64, .f32⟩ : BufTy).Contents (Elt F) :=
  Host.dotGeneral dot_S100000x768_S768x64_S100000x64_1_0_0_1_n_n none x W

/-- The second product, hidden features times the second matrix, as ONE product of whole arrays. -/
def prod32 (h : (⟨S100000x64, .f32⟩ : BufTy).Contents (Elt F)) (W : (⟨S64x32, .f32⟩ : BufTy).Contents (Elt F)) : (⟨S100000x32, .f32⟩ : BufTy).Contents (Elt F) :=
  Host.dotGeneral dot_S100000x64_S64x32_S100000x32_1_0_0_1_n_n none h W

/-- The hidden features: relu of the first layer over the first product. -/
def hidden (x : (⟨S100000x768, .f32⟩ : BufTy).Contents (Elt F)) (ei : (⟨S2x1600000, .i32⟩ : BufTy).Contents (Elt F))
    (W1 : (⟨S768x64, .f32⟩ : BufTy).Contents (Elt F)) (b1 : (⟨S64, .f32⟩ : BufTy).Contents (Elt F)) : (⟨S100000x64, .f32⟩ : BufTy).Contents (Elt F) :=
  relu64 (layer64 (prod64 x W1) (srcOf ei) (dstOf ei) (normOf (srcOf ei) (dstOf ei)) b1)

/-- The network: the second layer over the second product of the hidden features. -/
def net (x : (⟨S100000x768, .f32⟩ : BufTy).Contents (Elt F)) (ei : (⟨S2x1600000, .i32⟩ : BufTy).Contents (Elt F))
    (W1 : (⟨S768x64, .f32⟩ : BufTy).Contents (Elt F)) (b1 : (⟨S64, .f32⟩ : BufTy).Contents (Elt F))
    (W2 : (⟨S64x32, .f32⟩ : BufTy).Contents (Elt F)) (b2 : (⟨S32, .f32⟩ : BufTy).Contents (Elt F)) : (⟨S100000x32, .f32⟩ : BufTy).Contents (Elt F) :=
  layer32 (prod32 (hidden x ei W1 b1) W2) (srcOf ei) (dstOf ei) (normOf (srcOf ei) (dstOf ei)) b2

end Cert.Gcn

end
-- ==== Proof.KernelChain.lean ====
/-
  The kernel's program between and around its two products, read as the graph convolution's own functions.

  The program's buffer contents are a fold through @main: host operations, the first product's region, host
  operations, the second product's region, host operations. Each host stretch is read back, operation by operation, to
  the named functions of the specification: before the first region the edge slots' sources, destinations and weights;
  between the regions the hidden features (the first layer's aggregation over the first region's output, then relu); after
  the second region the network's result (the second layer's aggregation over the second region's output). A buffer
  that a stretch or a region does not write keeps its contents, which carries the slots' sources, destinations and weights,
  and the argument arrays, from where they are made to where they are read.

  Everything here holds for any float family: nothing is computed, the operations are only matched.
-/
import proofs.«127424_j17068200034897_1_alg».proof.Proof.Gen.KernelIdeal.Frame
import proofs.«127424_j17068200034897_1_alg».proof.Proof.Gen.ReferenceIdeal
import proofs.«127424_j17068200034897_1_alg».proof.Proof.GcnSpec
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable {F : FTy → Type} [FloatOps F]
variable (m : (ℓ : Loc nD τ sig) → Buf (Elt F) ℓ) (ρ : Dev nD → PrngReg)

/-! ## Before the first region -/

/-- The edge slots' sources, as the first region finds them. -/
theorem src_at3 (c : Dev nD) :
    W3 m ρ c (Proc.devRef .tc main_v3) = Gcn.srcOf (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results
  rfl

/-- The edge slots' destinations, as the first region finds them. -/
theorem dst_at3 (c : Dev nD) :
    W3 m ρ c (Proc.devRef .tc main_v6) = Gcn.dstOf (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results
  rfl

set_option maxHeartbeats 4000000 in
/-- The edge slots' weights, as the first region finds them. -/
theorem norm_at3 (c : Dev nD) :
    W3 m ρ c (Proc.devRef .tc main_v29)
      = Gcn.normOf (F := F) (Gcn.srcOf (m ((c : Thread nD τ).loc main_arg1))) (Gcn.dstOf (m ((c : Thread nD τ).loc main_arg1))) := by
  show StableHlo.after hostOps0_2 (StableHlo.after hostOps0_1 (StableHlo.after hostOps0 (W0 m ρ c))) (Proc.devRef .tc main_v29) = _
  simp only [hostOps0, hostOps0_1, hostOps0_2]
  after_results_simp
  rfl

/-- Reads one buffer after a stretch of host operations that does not write it: the contents before the stretch. -/
macro "kept_through" : tactic => `(tactic| (simp only [hostOps0, hostOps0_1, hostOps0_2, hostOps1, hostOps1_1, hostOps2]; after_results; all_goals rfl))

/-- The features reach the first region as launched. -/
theorem arg0_at3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  kept_through

/-- The first matrix reaches the first region as launched. -/
theorem arg2_at3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  kept_through

/-- The first bias reaches the first region as launched. -/
theorem arg3_at3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  kept_through

/-- The second matrix reaches the first region as launched. -/
theorem arg4_at3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  kept_through

/-- The second bias reaches the first region as launched. -/
theorem arg5_at3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  kept_through

/-! ## Across the first region: it writes its output array only -/

theorem src_at4 (c : Dev nD) : W4 m ρ c (Proc.devRef .tc main_v3) = Gcn.srcOf (F := F) (m ((c : Thread nD τ).loc main_arg1)) :=
  (W4_of_ne m ρ c main_v3 (by decide)).trans (src_at3 m ρ c)
theorem dst_at4 (c : Dev nD) : W4 m ρ c (Proc.devRef .tc main_v6) = Gcn.dstOf (F := F) (m ((c : Thread nD τ).loc main_arg1)) :=
  (W4_of_ne m ρ c main_v6 (by decide)).trans (dst_at3 m ρ c)
theorem norm_at4 (c : Dev nD) : W4 m ρ c (Proc.devRef .tc main_v29)
    = Gcn.normOf (F := F) (Gcn.srcOf (m ((c : Thread nD τ).loc main_arg1))) (Gcn.dstOf (m ((c : Thread nD τ).loc main_arg1))) :=
  (W4_of_ne m ρ c main_v29 (by decide)).trans (norm_at3 m ρ c)
theorem arg3_at4 (c : Dev nD) : W4 m ρ c (Proc.devRef .tc main_arg3) = m ((c : Thread nD τ).loc main_arg3) :=
  (W4_of_ne m ρ c main_arg3 (by decide)).trans (arg3_at3 m ρ c)
theorem arg4_at4 (c : Dev nD) : W4 m ρ c (Proc.devRef .tc main_arg4) = m ((c : Thread nD τ).loc main_arg4) :=
  (W4_of_ne m ρ c main_arg4 (by decide)).trans (arg4_at3 m ρ c)
theorem arg5_at4 (c : Dev nD) : W4 m ρ c (Proc.devRef .tc main_arg5) = m ((c : Thread nD τ).loc main_arg5) :=
  (W4_of_ne m ρ c main_arg5 (by decide)).trans (arg5_at3 m ρ c)

/-! ## Between the regions -/

set_option maxHeartbeats 4000000 in
/-- The hidden features, as the second region finds them: relu of the first layer's aggregation over the first region's
    output array. -/
theorem hidden_at6 (c : Dev nD) :
    W6 m ρ c (Proc.devRef .tc main_v47)
      = Gcn.relu64 (F := F) (Gcn.layer64 (W4 m ρ c (Proc.devRef .tc main_v30)) (W4 m ρ c (Proc.devRef .tc main_v3))
          (W4 m ρ c (Proc.devRef .tc main_v6)) (W4 m ρ c (Proc.devRef .tc main_v29)) (W4 m ρ c (Proc.devRef .tc main_arg3))) := by
  show StableHlo.after hostOps1_1 (StableHlo.after hostOps1 (W4 m ρ c)) (Proc.devRef .tc main_v47) = _
  simp only [hostOps1, hostOps1_1]
  after_results_simp
  rfl

theorem src_at6 (c : Dev nD) : W6 m ρ c (Proc.devRef .tc main_v3) = Gcn.srcOf (F := F) (m ((c : Thread nD τ).loc main_arg1)) := by
  refine Eq.trans ?_ (src_at4 m ρ c)
  show StableHlo.after hostOps1_1 (StableHlo.after hostOps1 (W4 m ρ c)) (Proc.devRef .tc main_v3) = _
  kept_through
theorem dst_at6 (c : Dev nD) : W6 m ρ c (Proc.devRef .tc main_v6) = Gcn.dstOf (F := F) (m ((c : Thread nD τ).loc main_arg1)) := by
  refine Eq.trans ?_ (dst_at4 m ρ c)
  show StableHlo.after hostOps1_1 (StableHlo.after hostOps1 (W4 m ρ c)) (Proc.devRef .tc main_v6) = _
  kept_through
theorem norm_at6 (c : Dev nD) : W6 m ρ c (Proc.devRef .tc main_v29)
    = Gcn.normOf (F := F) (Gcn.srcOf (m ((c : Thread nD τ).loc main_arg1))) (Gcn.dstOf (m ((c : Thread nD τ).loc main_arg1))) := by
  refine Eq.trans ?_ (norm_at4 m ρ c)
  show StableHlo.after hostOps1_1 (StableHlo.after hostOps1 (W4 m ρ c)) (Proc.devRef .tc main_v29) = _
  kept_through
theorem arg4_at6 (c : Dev nD) : W6 m ρ c (Proc.devRef .tc main_arg4) = m ((c : Thread nD τ).loc main_arg4) := by
  refine Eq.trans ?_ (arg4_at4 m ρ c)
  show StableHlo.after hostOps1_1 (StableHlo.after hostOps1 (W4 m ρ c)) (Proc.devRef .tc main_arg4) = _
  kept_through
theorem arg5_at6 (c : Dev nD) : W6 m ρ c (Proc.devRef .tc main_arg5) = m ((c : Thread nD τ).loc main_arg5) := by
  refine Eq.trans ?_ (arg5_at4 m ρ c)
  show StableHlo.after hostOps1_1 (StableHlo.after hostOps1 (W4 m ρ c)) (Proc.devRef .tc main_arg5) = _
  kept_through

/-! ## Across the second region: it writes its output array only -/

theorem src_at7 (c : Dev nD) : W7 m ρ c (Proc.devRef .tc main_v3) = Gcn.srcOf (F := F) (m ((c : Thread nD τ).loc main_arg1)) :=
  (W7_of_ne m ρ c main_v3 (by decide)).trans (src_at6 m ρ c)
theorem dst_at7 (c : Dev nD) : W7 m ρ c (Proc.devRef .tc main_v6) = Gcn.dstOf (F := F) (m ((c : Thread nD τ).loc main_arg1)) :=
  (W7_of_ne m ρ c main_v6 (by decide)).trans (dst_at6 m ρ c)
theorem norm_at7 (c : Dev nD) : W7 m ρ c (Proc.devRef .tc main_v29)
    = Gcn.normOf (F := F) (Gcn.srcOf (m ((c : Thread nD τ).loc main_arg1))) (Gcn.dstOf (m ((c : Thread nD τ).loc main_arg1))) :=
  (W7_of_ne m ρ c main_v29 (by decide)).trans (norm_at6 m ρ c)
theorem arg5_at7 (c : Dev nD) : W7 m ρ c (Proc.devRef .tc main_arg5) = m ((c : Thread nD τ).loc main_arg5) :=
  (W7_of_ne m ρ c main_arg5 (by decide)).trans (arg5_at6 m ρ c)

/-! ## After the second region -/

set_option maxHeartbeats 4000000 in
/-- The program's result: the second layer's aggregation over the second region's output array. -/
theorem out_at8 (c : Dev nD) :
    W8 m ρ c (Proc.devRef .tc main_v64)
      = Gcn.layer32 (F := F) (W7 m ρ c (Proc.devRef .tc main_v48)) (W7 m ρ c (Proc.devRef .tc main_v3))
          (W7 m ρ c (Proc.devRef .tc main_v6)) (W7 m ρ c (Proc.devRef .tc main_v29)) (W7 m ρ c (Proc.devRef .tc main_arg5)) := by
  show StableHlo.after hostOps2 (W7 m ρ c) (Proc.devRef .tc main_v64) = _
  simp only [hostOps2]
  after_results_simp
  rfl

end Cert.KernelIdeal.Chain

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Region0Value.lean ====
/-
  The first product, computed block of rows by block.

  The region walks 50 grid points. Point t fetches rows 2000·t … 2000·t + 1999 of the features (all 768 columns) and the
  whole 768×64 matrix, multiplies them into a zero accumulator, and writes the 2000×64 result back as rows
  2000·t … 2000·t + 1999 of the output. At the ideal values a change of float format is the identity and a product
  into a zero accumulator is the plain sum over the contracted coordinate, so entry (p, q) of point t's block is
  Σ_l x(2000·t + p, l) · W(l, q): exactly entry (2000·t + p, q) of the ONE product of the whole arrays. The 50 blocks
  tile the 100000 rows, so after the region the output array IS that whole product.
-/
import proofs.«127424_j17068200034897_1_alg».proof.Proof.Gen.KernelIdeal.Frame
import proofs.«127424_j17068200034897_1_alg».proof.Proof.Gen.ReferenceIdeal
import proofs.«127424_j17068200034897_1_alg».proof.Proof.LibDenseLayer
import proofs.«127424_j17068200034897_1_alg».proof.Proof.GcnSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

-- the buffer contents the region is entered from
variable (V : (c : Dev nD) → (b : Ref sig .tc) → Buf (Elt Ideal) ((c : Thread nD τ).loc b))

theorem hz : (![0, 0] : Fin 2 → Nat) = fun _ => 0 := funext fun a => by fin_cases a <;> rfl

/-- The left operand as the region finds it. -/
abbrev lhsArr (c : Dev nD) : FVec Ideal S100000x768 .f32 := V c main_arg0
/-- The right operand as the region finds it. -/
abbrev rhsArr (c : Dev nD) : FVec Ideal S768x64 .f32 := V c main_arg2
/-- The left operand's block at point `t`: 2000 of its rows. -/
abbrev lhsBlk (c : Dev nD) (t : Fin cfg0.N) : FVec Ideal S2000x768 .f32 := iblk0 V c 0 t
/-- The right operand's block at point `t`: all of it. -/
abbrev rhsBlk (c : Dev nD) (t : Fin cfg0.N) : FVec Ideal S768x64 .f32 := iblk0 V c 1 t

/-- The body's product at an entry: the sum over the contracted coordinate. -/
theorem pay_apply (x0 : FVec Ideal S2000x768 .f32) (x1 : FVec Ideal S768x64 .f32) (p : Fin 2000) (q : Fin 64) :
    k0_pay1 x0 x1 (ix2 p q) = ∑ l : Fin 768, x0 (ix2 p l) * x1 (ix2 l q) := by
  unfold k0_pay1
  try simp only [shapeCast_self]
  exact DenseLayer.matmul_rows_apply _ none _ _ p q

/-- The ONE product of the whole arrays at an entry: the same sum. -/
theorem whole_apply (A : FVec Ideal S100000x768 .f32) (B : FVec Ideal S768x64 .f32) (r : Fin 100000) (h : Fin 64) :
    Gcn.prod64 (F := Ideal) A B (ix2 r h) = ∑ l : Fin 768, A (ix2 r l) * B (ix2 l h) := by
  unfold Gcn.prod64
  exact DenseLayer.dotGeneral_rows_apply _ none .single A B r h

/-- The printed index maps over the grid: the left operand's and the output's blocks move down one block of rows a
    point, the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, l) of the left operand's block at point `t` is entry (2000·t + p, l) of the array. -/
theorem lhsBlk_apply (c : Dev nD) (t : Fin cfg0.N) (p : Fin 2000) (l : Fin 768) (r : Fin 100000)
    (hr : r.val = 2000 * t.val + p.val) : lhsBlk V c t (ix2 p l) = lhsArr V c (ix2 r l) := by
  obtain ⟨e0, e1, -, -, -, -⟩ := idx_facts t
  show V c main_arg0 (((cfg0.win 0).blk t).view.emb (ix2 p l)) = V c main_arg0 (ix2 r l)
  refine congrArg (V c main_arg0) ?_
  funext a; apply Fin.ext
  match a with
  | ⟨0, _⟩ => show win0_0.index t (0 : Fin 2) * 2000 + 1 * p.val = r.val; omega
  | ⟨1, _⟩ => show win0_0.index t (1 : Fin 2) * 768 + 1 * l.val = l.val; omega

/-- The right operand's block at every point is the array. -/
theorem rhsBlk_apply (c : Dev nD) (t : Fin cfg0.N) (l : Fin 768) (q : Fin 64) :
    rhsBlk V c t (ix2 l q) = rhsArr V c (ix2 l q) := by
  obtain ⟨-, -, e2, e3, -, -⟩ := idx_facts t
  show V c main_arg2 (((cfg0.win 1).blk t).view.emb (ix2 l q)) = V c main_arg2 (ix2 l q)
  refine congrArg (V c main_arg2) ?_
  funext a; apply Fin.ext
  match a with
  | ⟨0, _⟩ => show win0_1.index t (0 : Fin 2) * 768 + 1 * l.val = l.val; omega
  | ⟨1, _⟩ => show win0_1.index t (1 : Fin 2) * 64 + 1 * q.val = q.val; omega

/-- WHAT POINT `t` WRITES BACK is block `t` of the whole product of the arrays as the region finds them. -/
theorem flushed_eq (c : Dev nD) (t : Fin cfg0.N) :
    (dat0 V c).flushed 2 t = ((cfg0.win 2).blk t).view.read (Elt Ideal) (Gcn.prod64 (F := Ideal) (lhsArr V c) (rhsArr V c)) := by
  show (cfg0.win 2).cut (grid0.coords t) ((dat0 V c).after 2 t) = _
  rw [after0_2]
  unfold out0_2
  rw [View.canon_unit_zero hz]
  simp only [View.ld_unit_zero (S := S2000x768) hz, View.ld_unit_zero (S := S768x64) hz]
  funext j
  show k0_pay1 (F := Ideal) (lhsBlk V c t) (rhsBlk V c t) j = Gcn.prod64 (F := Ideal) (lhsArr V c) (rhsArr V c) (((cfg0.win 2).blk t).view.emb j)
  obtain ⟨p, q, rfl⟩ : ∃ (p : Fin 2000) (q : Fin 64), j = ix2 p q := ⟨j 0, j 1, eq_ix2 j⟩
  obtain ⟨-, -, -, -, e4, e5⟩ := idx_facts t
  have ht : t.val < 50 := by have h := t.isLt; have hN : cfg0.N = 50 := N_0; omega
  have hemb : ((cfg0.win 2).blk t).view.emb (ix2 p q) = ix2 (⟨2000 * t.val + p.val, by have := p.isLt; omega⟩ : Fin 100000) q := by
    funext a; apply Fin.ext
    match a with
    | ⟨0, _⟩ => show win0_2.index t (0 : Fin 2) * 2000 + 1 * p.val = 2000 * t.val + p.val; omega
    | ⟨1, _⟩ => show win0_2.index t (1 : Fin 2) * 64 + 1 * q.val = q.val; omega
  rw [hemb, whole_apply, pay_apply]
  refine Finset.sum_congr rfl fun l _ => ?_
  rw [lhsBlk_apply V c t p l ⟨2000 * t.val + p.val, by have := p.isLt; omega⟩ rfl, rhsBlk_apply V c t l q]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every entry of the output array is in the block of the point that holds its row: row r is in block r / 2000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨-, -, -, -, e4, e5⟩ := idx_facts t
  have et : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- THE OUTPUT ARRAY after the region: the ONE product of the whole arrays as the region finds them. -/
theorem final (c : Dev nD) : (dat0 V c).arrAt 2 cfg0.N = Gcn.prod64 (F := Ideal) (lhsArr V c) (rhsArr V c) :=
  (dat0 V c).arrAt_eq_of_cover 2 (Gcn.prod64 (F := Ideal) (lhsArr V c) (rhsArr V c)) (fun t _ => flushed_eq V c t) cover

end Cert.KernelIdeal.Region0

end
-- ==== Proof.Region1Value.lean ====
/-
  The second product, computed block of rows by block.

  The region walks 20 grid points. Point t fetches rows 5000·t … 5000·t + 4999 of the hidden features (all 64 columns) and the
  whole 64×32 matrix, multiplies them into a zero accumulator, and writes the 5000×32 result back as rows
  5000·t … 5000·t + 4999 of the output. At the ideal values a change of float format is the identity and a product
  into a zero accumulator is the plain sum over the contracted coordinate, so entry (p, q) of point t's block is
  Σ_l x(5000·t + p, l) · W(l, q): exactly entry (5000·t + p, q) of the ONE product of the whole arrays. The 20 blocks
  tile the 100000 rows, so after the region the output array IS that whole product.
-/
import proofs.«127424_j17068200034897_1_alg».proof.Proof.Gen.KernelIdeal.Frame
import proofs.«127424_j17068200034897_1_alg».proof.Proof.Gen.ReferenceIdeal
import proofs.«127424_j17068200034897_1_alg».proof.Proof.LibDenseLayer
import proofs.«127424_j17068200034897_1_alg».proof.Proof.GcnSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

-- the buffer contents the region is entered from
variable (V : (c : Dev nD) → (b : Ref sig .tc) → Buf (Elt Ideal) ((c : Thread nD τ).loc b))

theorem hz : (![0, 0] : Fin 2 → Nat) = fun _ => 0 := funext fun a => by fin_cases a <;> rfl

/-- The left operand as the region finds it. -/
abbrev lhsArr (c : Dev nD) : FVec Ideal S100000x64 .f32 := V c main_v47
/-- The right operand as the region finds it. -/
abbrev rhsArr (c : Dev nD) : FVec Ideal S64x32 .f32 := V c main_arg4
/-- The left operand's block at point `t`: 5000 of its rows. -/
abbrev lhsBlk (c : Dev nD) (t : Fin cfg1.N) : FVec Ideal S5000x64 .f32 := iblk1 V c 0 t
/-- The right operand's block at point `t`: all of it. -/
abbrev rhsBlk (c : Dev nD) (t : Fin cfg1.N) : FVec Ideal S64x32 .f32 := iblk1 V c 1 t

/-- The body's product at an entry: the sum over the contracted coordinate. -/
theorem pay_apply (x0 : FVec Ideal S5000x64 .f32) (x1 : FVec Ideal S64x32 .f32) (p : Fin 5000) (q : Fin 32) :
    k1_pay1 x0 x1 (ix2 p q) = ∑ l : Fin 64, x0 (ix2 p l) * x1 (ix2 l q) := by
  unfold k1_pay1
  try simp only [shapeCast_self]
  exact DenseLayer.matmul_rows_apply _ none _ _ p q

/-- The ONE product of the whole arrays at an entry: the same sum. -/
theorem whole_apply (A : FVec Ideal S100000x64 .f32) (B : FVec Ideal S64x32 .f32) (r : Fin 100000) (h : Fin 32) :
    Gcn.prod32 (F := Ideal) A B (ix2 r h) = ∑ l : Fin 64, A (ix2 r l) * B (ix2 l h) := by
  unfold Gcn.prod32
  exact DenseLayer.dotGeneral_rows_apply _ none .single A B r h

/-- The printed index maps over the grid: the left operand's and the output's blocks move down one block of rows a
    point, the right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, l) of the left operand's block at point `t` is entry (5000·t + p, l) of the array. -/
theorem lhsBlk_apply (c : Dev nD) (t : Fin cfg1.N) (p : Fin 5000) (l : Fin 64) (r : Fin 100000)
    (hr : r.val = 5000 * t.val + p.val) : lhsBlk V c t (ix2 p l) = lhsArr V c (ix2 r l) := by
  obtain ⟨e0, e1, -, -, -, -⟩ := idx_facts t
  show V c main_v47 (((cfg1.win 0).blk t).view.emb (ix2 p l)) = V c main_v47 (ix2 r l)
  refine congrArg (V c main_v47) ?_
  funext a; apply Fin.ext
  match a with
  | ⟨0, _⟩ => show win1_0.index t (0 : Fin 2) * 5000 + 1 * p.val = r.val; omega
  | ⟨1, _⟩ => show win1_0.index t (1 : Fin 2) * 64 + 1 * l.val = l.val; omega

/-- The right operand's block at every point is the array. -/
theorem rhsBlk_apply (c : Dev nD) (t : Fin cfg1.N) (l : Fin 64) (q : Fin 32) :
    rhsBlk V c t (ix2 l q) = rhsArr V c (ix2 l q) := by
  obtain ⟨-, -, e2, e3, -, -⟩ := idx_facts t
  show V c main_arg4 (((cfg1.win 1).blk t).view.emb (ix2 l q)) = V c main_arg4 (ix2 l q)
  refine congrArg (V c main_arg4) ?_
  funext a; apply Fin.ext
  match a with
  | ⟨0, _⟩ => show win1_1.index t (0 : Fin 2) * 64 + 1 * l.val = l.val; omega
  | ⟨1, _⟩ => show win1_1.index t (1 : Fin 2) * 32 + 1 * q.val = q.val; omega

/-- WHAT POINT `t` WRITES BACK is block `t` of the whole product of the arrays as the region finds them. -/
theorem flushed_eq (c : Dev nD) (t : Fin cfg1.N) :
    (dat1 V c).flushed 2 t = ((cfg1.win 2).blk t).view.read (Elt Ideal) (Gcn.prod32 (F := Ideal) (lhsArr V c) (rhsArr V c)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x32) hz]
  funext j
  show k1_pay1 (F := Ideal) (lhsBlk V c t) (rhsBlk V c t) j = Gcn.prod32 (F := Ideal) (lhsArr V c) (rhsArr V c) (((cfg1.win 2).blk t).view.emb j)
  obtain ⟨p, q, rfl⟩ : ∃ (p : Fin 5000) (q : Fin 32), j = ix2 p q := ⟨j 0, j 1, eq_ix2 j⟩
  obtain ⟨-, -, -, -, e4, e5⟩ := idx_facts t
  have ht : t.val < 20 := by have h := t.isLt; have hN : cfg1.N = 20 := N_1; omega
  have hemb : ((cfg1.win 2).blk t).view.emb (ix2 p q) = ix2 (⟨5000 * t.val + p.val, by have := p.isLt; omega⟩ : Fin 100000) q := by
    funext a; apply Fin.ext
    match a with
    | ⟨0, _⟩ => show win1_2.index t (0 : Fin 2) * 5000 + 1 * p.val = 5000 * t.val + p.val; omega
    | ⟨1, _⟩ => show win1_2.index t (1 : Fin 2) * 32 + 1 * q.val = q.val; omega
  rw [hemb, whole_apply, pay_apply]
  refine Finset.sum_congr rfl fun l _ => ?_
  rw [lhsBlk_apply V c t p l ⟨5000 * t.val + p.val, by have := p.isLt; omega⟩ rfl, rhsBlk_apply V c t l q]

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Every entry of the output array is in the block of the point that holds its row: row r is in block r / 5000. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, e4, e5⟩ := idx_facts t
  have et : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- THE OUTPUT ARRAY after the region: the ONE product of the whole arrays as the region finds them. -/
theorem final (c : Dev nD) : (dat1 V c).arrAt 2 cfg1.N = Gcn.prod32 (F := Ideal) (lhsArr V c) (rhsArr V c) :=
  (dat1 V c).arrAt_eq_of_cover 2 (Gcn.prod32 (F := Ideal) (lhsArr V c) (rhsArr V c)) (fun t _ => flushed_eq V c t) cover

end Cert.KernelIdeal.Region1

end
-- ==== Proof.KernelValue.lean ====
/-
  The kernel's program computes the graph convolution network of its argument arrays.

  At the ideal values each region's output array is ONE product of whole arrays (the first: features times the first
  matrix; the second: hidden features times the second matrix), because a block of rows of a product is the product
  of that block of rows. Put between the host stretches as they were read back, the first region's output feeds the
  first layer's aggregation and relu, which gives the hidden features the second region multiplies, and the second
  region's output feeds the second layer's aggregation: the result buffer ends at `net` of the arguments. The edge
  slots' weights are worked out once and read by both layers.
-/
import proofs.«127424_j17068200034897_1_alg».proof.Proof.KernelRun
import proofs.«127424_j17068200034897_1_alg».proof.Proof.KernelChain
import proofs.«127424_j17068200034897_1_alg».proof.Proof.Region0Value
import proofs.«127424_j17068200034897_1_alg».proof.Proof.Region1Value

set_option maxRecDepth 16384

noncomputable section

open Idealize.ShloMosaic Idealize.ShloMosaic.TcCoe Idealize.SL.Sem

namespace Cert.KernelIdeal.KernelValue

open Cert.KernelIdeal Cert.KernelIdeal.Gen

variable (m : (ℓ : Loc nD τ sig) → Buf (Elt Ideal) ℓ) (ρ : Dev nD → PrngReg)

/-- The first region leaves in its output array the ONE product of the features with the first matrix. -/
theorem prod_at4 (c : Dev nD) :
    W4 m ρ c (Proc.devRef .tc main_v30)
      = Gcn.prod64 (F := Ideal) (m ((c : Thread nD τ).loc main_arg0)) (m ((c : Thread nD τ).loc main_arg2)) := by
  refine (W4_arr m ρ c 2).trans ((Region0.final (V3 m ρ) c).trans ?_)
  show Gcn.prod64 (F := Ideal) (W3 m ρ c (Proc.devRef .tc main_arg0)) (W3 m ρ c (Proc.devRef .tc main_arg2)) = _
  rw [Chain.arg0_at3, Chain.arg2_at3]

/-- The second region is entered with the hidden features in its left operand. -/
theorem hidden_at6 (c : Dev nD) :
    W6 m ρ c (Proc.devRef .tc main_v47)
      = Gcn.hidden (F := Ideal) (m ((c : Thread nD τ).loc main_arg0)) (m ((c : Thread nD τ).loc main_arg1))
          (m ((c : Thread nD τ).loc main_arg2)) (m ((c : Thread nD τ).loc main_arg3)) := by
  rw [Chain.hidden_at6, prod_at4, Chain.src_at4, Chain.dst_at4, Chain.norm_at4, Chain.arg3_at4]
  rfl

/-- The second region leaves in its output array the ONE product of the hidden features with the second matrix. -/
theorem prod_at7 (c : Dev nD) :
    W7 m ρ c (Proc.devRef .tc main_v48)
      = Gcn.prod32 (F := Ideal) (Gcn.hidden (m ((c : Thread nD τ).loc main_arg0)) (m ((c : Thread nD τ).loc main_arg1))
          (m ((c : Thread nD τ).loc main_arg2)) (m ((c : Thread nD τ).loc main_arg3))) (m ((c : Thread nD τ).loc main_arg4)) := by
  refine (W7_arr m ρ c 2).trans ((Region1.final (V6 m ρ) c).trans ?_)
  show Gcn.prod32 (F := Ideal) (W6 m ρ c (Proc.devRef .tc main_v47)) (W6 m ρ c (Proc.devRef .tc main_arg4)) = _
  rw [hidden_at6, Chain.arg4_at6]

/-- The result buffer at the end of the fold through @main is the network of the arguments. -/
theorem result_eq (c : Dev nD) :
    W8 m ρ c (Proc.devRef .tc main_v64)
      = Gcn.net (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [Chain.out_at8, prod_at7, Chain.src_at7, Chain.dst_at7, Chain.norm_at7, Chain.arg5_at7]
  rfl

/-- THE RUN, READ: every weakly fair execution of the kernel's program terminates, nothing faulting, with the result at the
    network of the arguments and the arguments as launched. -/
theorem run : θ_run defs (onTc (τ := τ) (main (F := Ideal))) ⟨m, fun _ => 0, ρ⟩ (fun r => ∀ c : Dev nD,
      r.2.mem ((c.tc : Thread nD τ).loc main_v64)
        = Gcn.net (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (GenRun.run_named m ρ)

end Cert.KernelIdeal.KernelValue

end
-- ==== Proof.RefSide.lean ====
/-
  The reference's side: its result is the graph convolution network of its argument arrays.

  The reference's run ends with its result at one composed term of the arguments: every host operation applied to
  the operations before it, with the edge slots' weights worked out twice (once for each layer, from the same edge
  list). Spelt out, that term is the specification's `net`: the second layer over ONE product of the hidden features
  with the second matrix, the hidden features relu of the first layer over ONE product of the features with the first
  matrix. The two are the same text once the named functions are opened, so nothing is computed here.
-/
import proofs.«127424_j17068200034897_1_alg».proof.Defs
import proofs.«127424_j17068200034897_1_alg».proof.Proof.RefRun
import proofs.«127424_j17068200034897_1_alg».proof.Proof.GcnSpec

set_option maxRecDepth 16384

noncomputable section

open Idealize.ShloMosaic Idealize.ShloMosaic.TcCoe Idealize.SL.Sem

namespace Cert.ReferenceIdeal.RefSide

open Cert.ReferenceIdeal Cert.ReferenceIdeal.Gen Cert.ReferenceIdeal.RefRun

variable {F : FTy → Type} [FloatOps F]

/-- The reference's result term is the network of the argument arrays. -/
theorem result_eq (m : (ℓ : Loc nD τ sig) → Buf (Elt F) ℓ) (c : Dev nD) :
    res_main_v87 m c
      = Gcn.net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v87 Gcn.net Gcn.hidden Gcn.layer32 Gcn.layer64 Gcn.relu64 Gcn.prod32 Gcn.prod64 Gcn.normOf Gcn.dinvOf
    Gcn.degOf Gcn.wrap Gcn.srcOf Gcn.dstOf
  rfl

end Cert.ReferenceIdeal.RefSide

end
-- ==== Proof.lean ====
/-
  A two-layer graph convolution network: the kernel's program against the reference, over the extended reals.

  Both programs build the same edge slots from the edge list (sources and destinations, a loop added at every node),
  the same weights (degree^(-1/2) at both ends of a slot, 0 where the degree is not positive), and run two layers:
  features times a matrix, then along every slot the source's row scaled by the slot's weight, summed at the
  destination, plus a bias; relu between the layers. They differ in two ways only. The kernel's program computes
  each of the two matrix products in a region that walks the rows block by block (2000 rows a point for the first, 5000
  for the second) and narrows the operands' float format first; the reference computes each as ONE product of whole
  arrays. And the kernel's program works the slots' weights out once, the reference once per layer from the same edge
  list. At the ideal values a change of float format is the identity, a product into a zero accumulator is the plain
  sum over the contracted coordinate, and a block of rows of a product is the product of that block of rows; so each
  region's output array IS the whole product, and everything else is the same operations on the same values. No law
  that needs finite entries is used: the precondition is not opened.

  The three frames: the kernel's two programs by their generated frame certificates, the reference's by its run with the
  result dropped. The ideal pass rewrote nothing, so the idealization claim is trivial.
-/
import proofs.«127424_j17068200034897_1_alg».proof.Defs
import proofs.«127424_j17068200034897_1_alg».proof.Proof.Gen.Kernel
import proofs.«127424_j17068200034897_1_alg».proof.Proof.Gen.Kernel.Skeleton
import proofs.«127424_j17068200034897_1_alg».proof.Proof.Gen.Kernel.Launch
import proofs.«127424_j17068200034897_1_alg».proof.Proof.Gen.Kernel.Points
import proofs.«127424_j17068200034897_1_alg».proof.Proof.Gen.Kernel.Frame
import proofs.«127424_j17068200034897_1_alg».proof.Proof.Gen.KernelIdeal
import proofs.«127424_j17068200034897_1_alg».proof.Proof.Gen.KernelIdeal.Skeleton
import proofs.«127424_j17068200034897_1_alg».proof.Proof.Gen.KernelIdeal.Launch
import proofs.«127424_j17068200034897_1_alg».proof.Proof.Gen.KernelIdeal.Points
import proofs.«127424_j17068200034897_1_alg».proof.Proof.Gen.KernelIdeal.Frame
import proofs.«127424_j17068200034897_1_alg».proof.Proof.Gen.ReferenceIdeal
import proofs.«127424_j17068200034897_1_alg».proof.Proof.Gen.Pre_finite_inputs
import proofs.«127424_j17068200034897_1_alg».proof.Proof.KernelValue
import proofs.«127424_j17068200034897_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the result at the network of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefSide.result_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
